-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x128 : Shape := ⟨2, ![8, 128]⟩
abbrev S8x64x3 : Shape := ⟨3, ![8, 64, 3]⟩
abbrev S8x4096 : Shape := ⟨2, ![8, 4096]⟩
abbrev S8x1 : Shape := ⟨2, ![8, 1]⟩
abbrev S8x64 : Shape := ⟨2, ![8, 64]⟩
abbrev S8x64x4096 : Shape := ⟨3, ![8, 64, 4096]⟩
abbrev S8x64x1 : Shape := ⟨3, ![8, 64, 1]⟩
abbrev S8x1x4096 : Shape := ⟨3, ![8, 1, 4096]⟩
abbrev S8 : Shape := ⟨1, ![8]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x128, .f32⟩
  | .hbm, ⟨3, _⟩ => ⟨S8x1, .f32⟩
  | .hbm, ⟨4, _⟩ => ⟨S8, .f32⟩
  | .local _ .vmem, ⟨0, _⟩ => ⟨S8x64x3, .f32⟩
  | .local _ .vmem, ⟨1, _⟩ => ⟨S8x64x3, .f32⟩
  | .local _ .vmem, ⟨2, _⟩ => ⟨S8x4096x3, .f32⟩
  | .local _ .vmem, ⟨3, _⟩ => ⟨S8x128, .f32⟩
  | .local _ .vmem, ⟨4, _⟩ => ⟨S8x4096, .f32⟩
  | .local _ .vmem, ⟨5, _⟩ => ⟨S8x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v32 : BitVec 1 := Scalar.cmpi .eq arg0 c63_i32
  let v33 : BitVec 32 := Scalar.extui v32
  let c0_i32_20 : BitVec 32 := 0#32
  let v34 : BitVec 1 := Scalar.cmpi .ne v33 c0_i32_20
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x64x3_S8x64x3_0_0_0 : ∀ a, (![0, 0, 0] : Fin 3 → Nat) a + S8x64x3.size a ≤ S8x64x3.size a
  h_S8x64x3 : 0 < S8x64x3.numel
  inb_S8x4096x3_S8x4096x3_0_0_0 : ∀ a, (![0, 0, 0] : Fin 3 → Nat) a + S8x4096x3.size a ≤ S8x4096x3.size a
  h_S8x4096x3 : 0 < S8x4096x3.numel
  reduces_S8x64x3_S8x64 : S8x64x3.Reduces [2] S8x64
  reduces_S8x4096x3_S8x4096 : S8x4096x3.Reduces [2] S8x4096
  shapeCasts_S8x64_S8x64x1 : S8x64.ShapeCasts S8x64x1
  shapeCasts_S8x4096_S8x1x4096 : S8x4096.ShapeCasts S8x1x4096
  broadcasts_S8x64x1_S8x64x4096 : S8x64x1.Broadcasts S8x64x4096
  broadcasts_S8x1x4096_S8x64x4096 : S8x1x4096.Broadcasts S8x64x4096
  reduces_S8x64x4096_S8x64 : S8x64x4096.Reduces [2] S8x64
  reduces_S8x64_S8 : S8x64.Reduces [1] S8
  shapeCasts_S8_S8x1 : S8.ShapeCasts S8x1
  reduces_S8x64x4096_S8x4096 : S8x64x4096.Reduces [1] S8x4096
  reduces_S8x4096_S8 : S8x4096.Reduces [1] S8
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S8x128_S8x1_0_0 : S8x128.Slices ![0, 0] S8x1
  shapeCasts_S8x1_S8 : S8x1.ShapeCasts S8
  dot_S8x64x3_S8x4096x3_S8x64x4096_2_2_1_1_0_0_wf : DotDims.WF S8x64x3 S8x4096x3 S8x64x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x3.size a ≤ S8x4096x3.size a
  hwx0_0 : ∀ i : grid0.Coords, EltTy.bits .f32 = 32 ∨ (Rect.block (s := S8x4096x3) S8x64x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096x3.size a ≤ S8x4096x3.size a
  hwx0_1 : ∀ i : grid0.Coords, EltTy.bits .f32 = 32 ∨ (Rect.block (s := S8x4096x3) S8x4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)

variable [Facts₀]

def dot_S8x64x3_S8x4096x3_S8x64x4096_2_2_1_1_0_0 : DotDims S8x64x3 S8x4096x3 S8x64x4096 where
  lhsContracting := [2]
  rhsContracting := [2]
  lhsNonContracting := [1]
  rhsNonContracting := [1]
  lhsBatch := [0]
  rhsBatch := [0]
  wf := dot_S8x64x3_S8x4096x3_S8x64x4096_2_2_1_1_0_0_wf

abbrev win0_0 : Pipeline.Window sig grid0 :=
  Pipeline.Window.ofSpec (Memref.whole main_arg0) S8x64x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KernelPieces.lean ====
/-
  What one grid step leaves behind, as values.

  The running minimum (one number per batch and point of the second cloud) and the running sum (one number per batch)
  live in two buffers the kernel keeps from step to step.  At the first step it resets them (to +∞ and to 0) and then
  updates them; at every later step it only updates them; at the last step it also writes the result row.  Each
  buffer is overwritten whole by a single store, so what it holds afterwards is that store's value: the update formula
  applied to the tile, the second cloud, and what the buffer held before (the reset value at the first step).  The
  result row is the closing formula applied to the two buffers as just updated.
-/
import proofs.«168562_j78391743087244_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

/-- A block that starts at the origin. -/
theorem hz2 : (![0, 0] : Fin 2 → Nat) = fun _ => 0 := funext fun a => by fin_cases a <;> rfl
theorem hz3 : (![0, 0, 0] : Fin 3 → Nat) = fun _ => 0 := funext fun a => by fin_cases a <;> rfl

theorem sout_A_0 (c : Dev nD) (i : grid0.Coords) (arg1 : Memref sig .tc .vmem S8x64x3 .f32) (harg1 : arg1.IsWhole) (arg2 : Memref sig .tc .vmem S8x4096x3 .f32) (harg2 : arg2.IsWhole) (arg3 : Memref sig .tc .vmem S8x128 .f32) (harg3 : arg3.IsWhole) (arg4 : Memref sig .tc .vmem S8x4096 .f32) (harg4 : arg4.IsWhole) (arg5 : Memref sig .tc .vmem S8x1 .f32) (harg5 : arg5.IsWhole) (hc0 : cond0_0 i) (hc1 : ¬cond0_1 i)
    (x0 : Vec F S8x64x3 .f32) (x1 : Vec F S8x4096x3 .f32) :
    sout0_A_0 c i arg1 harg1 arg2 harg2 arg3 harg3 arg4 harg4 arg5 harg5 hc0 hc1 x0 x1 = k0_pay6 x0 x1 k0_pay2 := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S8x4096) hz2]
  simp only [View.readAt_eq_ld, harg1.read_unread, harg2.read_unread, harg4.read_unread, harg5.read_unread, View.ld_unit_zero (S := S8x64x3) hz3, View.ld_unit_zero (S := S8x4096x3) hz3, View.ld_unit_zero (S := S8x4096) hz2, View.ld_unit_zero (S := S8x1) hz2, View.readCov_unit_zero (S := S8x4096) _ hz2, View.readCov_unit_zero (S := S8x1) _ hz2]

theorem sout_A_1 (c : Dev nD) (i : grid0.Coords) (arg1 : Memref sig .tc .vmem S8x64x3 .f32) (harg1 : arg1.IsWhole) (arg2 : Memref sig .tc .vmem S8x4096x3 .f32) (harg2 : arg2.IsWhole) (arg3 : Memref sig .tc .vmem S8x128 .f32) (harg3 : arg3.IsWhole) (arg4 : Memref sig .tc .vmem S8x4096 .f32) (harg4 : arg4.IsWhole) (arg5 : Memref sig .tc .vmem S8x1 .f32) (harg5 : arg5.IsWhole) (hc0 : cond0_0 i) (hc1 : ¬cond0_1 i)
    (x0 : Vec F S8x64x3 .f32) (x1 : Vec F S8x4096x3 .f32) :
    sout0_A_1 c i arg1 harg1 arg2 harg2 arg3 harg3 arg4 harg4 arg5 harg5 hc0 hc1 x0 x1 = k0_pay5 x0 x1 k0_pay3 := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S8x1) hz2]
  simp only [View.readAt_eq_ld, harg1.read_unread, harg2.read_unread, harg4.read_unread, harg5.read_unread, View.ld_unit_zero (S := S8x64x3) hz3, View.ld_unit_zero (S := S8x4096x3) hz3, View.ld_unit_zero (S := S8x4096) hz2, View.ld_unit_zero (S := S8x1) hz2, View.readCov_unit_zero (S := S8x4096) _ hz2, View.readCov_unit_zero (S := S8x1) _ hz2]

theorem sout_B_0 (c : Dev nD) (i : grid0.Coords) (arg1 : Memref sig .tc .vmem S8x64x3 .f32) (harg1 : arg1.IsWhole) (arg2 : Memref sig .tc .vmem S8x4096x3 .f32) (harg2 : arg2.IsWhole) (arg3 : Memref sig .tc .vmem S8x128 .f32) (harg3 : arg3.IsWhole) (arg4 : Memref sig .tc .vmem S8x4096 .f32) (harg4 : arg4.IsWhole) (arg5 : Memref sig .tc .vmem S8x1 .f32) (harg5 : arg5.IsWhole) (hc0 : ¬cond0_0 i) (hc1 : ¬cond0_1 i)
    (x0 : Vec F S8x64x3 .f32) (x1 : Vec F S8x4096x3 .f32) (xs0 : Vec F S8x4096 .f32) (xs1 : Vec F S8x1 .f32) :
    sout0_B_0 c i arg1 harg1 arg2 harg2 arg3 harg3 arg4 harg4 arg5 harg5 hc0 hc1 x0 x1 xs0 xs1 = k0_pay6 x0 x1 xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero hz2]
  simp only [View.readAt_eq_ld, harg1.read_unread, harg2.read_unread, harg4.read_unread, harg5.read_unread, View.ld_unit_zero (S := S8x64x3) hz3, View.ld_unit_zero (S := S8x4096x3) hz3, View.ld_unit_zero (S := S8x4096) hz2, View.ld_unit_zero (S := S8x1) hz2, View.readCov_unit_zero (S := S8x4096) _ hz2, View.readCov_unit_zero (S := S8x1) _ hz2]

theorem sout_B_1 (c : Dev nD) (i : grid0.Coords) (arg1 : Memref sig .tc .vmem S8x64x3 .f32) (harg1 : arg1.IsWhole) (arg2 : Memref sig .tc .vmem S8x4096x3 .f32) (harg2 : arg2.IsWhole) (arg3 : Memref sig .tc .vmem S8x128 .f32) (harg3 : arg3.IsWhole) (arg4 : Memref sig .tc .vmem S8x4096 .f32) (harg4 : arg4.IsWhole) (arg5 : Memref sig .tc .vmem S8x1 .f32) (harg5 : arg5.IsWhole) (hc0 : ¬cond0_0 i) (hc1 : ¬cond0_1 i)
    (x0 : Vec F S8x64x3 .f32) (x1 : Vec F S8x4096x3 .f32) (xs0 : Vec F S8x4096 .f32) (xs1 : Vec F S8x1 .f32) :
    sout0_B_1 c i arg1 harg1 arg2 harg2 arg3 harg3 arg4 harg4 arg5 harg5 hc0 hc1 x0 x1 xs0 xs1 = k0_pay5 x0 x1 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero hz2]
  simp only [View.readAt_eq_ld, harg1.read_unread, harg2.read_unread, harg4.read_unread, harg5.read_unread, View.ld_unit_zero (S := S8x64x3) hz3, View.ld_unit_zero (S := S8x4096x3) hz3, View.ld_unit_zero (S := S8x4096) hz2, View.ld_unit_zero (S := S8x1) hz2, View.readCov_unit_zero (S := S8x4096) _ hz2, View.readCov_unit_zero (S := S8x1) _ hz2]

theorem sout_C_0 (c : Dev nD) (i : grid0.Coords) (arg1 : Memref sig .tc .vmem S8x64x3 .f32) (harg1 : arg1.IsWhole) (arg2 : Memref sig .tc .vmem S8x4096x3 .f32) (harg2 : arg2.IsWhole) (arg3 : Memref sig .tc .vmem S8x128 .f32) (harg3 : arg3.IsWhole) (arg4 : Memref sig .tc .vmem S8x4096 .f32) (harg4 : arg4.IsWhole) (arg5 : Memref sig .tc .vmem S8x1 .f32) (harg5 : arg5.IsWhole) (hc0 : ¬cond0_0 i) (hc1 : cond0_1 i)
    (x0 : Vec F S8x64x3 .f32) (x1 : Vec F S8x4096x3 .f32) (xs0 : Vec F S8x4096 .f32) (xs1 : Vec F S8x1 .f32) :
    sout0_C_0 c i arg1 harg1 arg2 harg2 arg3 harg3 arg4 harg4 arg5 harg5 hc0 hc1 x0 x1 xs0 xs1 = k0_pay6 x0 x1 xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero hz2]
  simp only [View.readAt_eq_ld, harg1.read_unread, harg2.read_unread, harg4.read_unread, harg5.read_unread, View.ld_unit_zero (S := S8x64x3) hz3, View.ld_unit_zero (S := S8x4096x3) hz3, View.ld_unit_zero (S := S8x4096) hz2, View.ld_unit_zero (S := S8x1) hz2, View.readCov_unit_zero (S := S8x4096) _ hz2, View.readCov_unit_zero (S := S8x1) _ hz2]

theorem sout_C_1 (c : Dev nD) (i : grid0.Coords) (arg1 : Memref sig .tc .vmem S8x64x3 .f32) (harg1 : arg1.IsWhole) (arg2 : Memref sig .tc .vmem S8x4096x3 .f32) (harg2 : arg2.IsWhole) (arg3 : Memref sig .tc .vmem S8x128 .f32) (harg3 : arg3.IsWhole) (arg4 : Memref sig .tc .vmem S8x4096 .f32) (harg4 : arg4.IsWhole) (arg5 : Memref sig .tc .vmem S8x1 .f32) (harg5 : arg5.IsWhole) (hc0 : ¬cond0_0 i) (hc1 : cond0_1 i)
    (x0 : Vec F S8x64x3 .f32) (x1 : Vec F S8x4096x3 .f32) (xs0 : Vec F S8x4096 .f32) (xs1 : Vec F S8x1 .f32) :
    sout0_C_1 c i arg1 harg1 arg2 harg2 arg3 harg3 arg4 harg4 arg5 harg5 hc0 hc1 x0 x1 xs0 xs1 = k0_pay5 x0 x1 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero hz2]
  simp only [View.readAt_eq_ld, harg1.read_unread, harg2.read_unread, harg4.read_unread, harg5.read_unread, View.ld_unit_zero (S := S8x64x3) hz3, View.ld_unit_zero (S := S8x4096x3) hz3, View.ld_unit_zero (S := S8x4096) hz2, View.ld_unit_zero (S := S8x1) hz2, View.readCov_unit_zero (S := S8x4096) _ hz2, View.readCov_unit_zero (S := S8x1) _ hz2]

theorem out_C_2 (c : Dev nD) (i : grid0.Coords) (arg1 : Memref sig .tc .vmem S8x64x3 .f32) (harg1 : arg1.IsWhole) (arg2 : Memref sig .tc .vmem S8x4096x3 .f32) (harg2 : arg2.IsWhole) (arg3 : Memref sig .tc .vmem S8x128 .f32) (harg3 : arg3.IsWhole) (arg4 : Memref sig .tc .vmem S8x4096 .f32) (harg4 : arg4.IsWhole) (arg5 : Memref sig .tc .vmem S8x1 .f32) (harg5 : arg5.IsWhole) (hc0 : ¬cond0_0 i) (hc1 : cond0_1 i)
    (x0 : Vec F S8x64x3 .f32) (x1 : Vec F S8x4096x3 .f32) (xs0 : Vec F S8x4096 .f32) (xs1 : Vec F S8x1 .f32) :
    out0_C_2 c i arg1 harg1 arg2 harg2 arg3 harg3 arg4 harg4 arg5 harg5 hc0 hc1 x0 x1 xs0 xs1 = k0_pay1 (k0_pay6 x0 x1 xs0) (k0_pay5 x0 x1 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero hz2]
  simp only [View.readAt_eq_ld, harg1.read_unread, harg2.read_unread, harg4.read_unread, harg5.read_unread, View.ld_unit_zero (S := S8x64x3) hz3, View.ld_unit_zero (S := S8x4096x3) hz3, View.ld_unit_zero (S := S8x4096) hz2, View.ld_unit_zero (S := S8x1) hz2, View.readCov_unit_zero (S := S8x4096) _ hz2, View.readCov_unit_zero (S := S8x1) _ hz2]

end Cert.KernelIdeal.Pieces

end
-- ==== Proof.Chamfer.lean ====
/-
  The Chamfer sum of two point clouds, as mathematics over the extended reals.

  For clouds `x`, `y` of 8 batches × 4096 points × 3 coordinates, the squared distance of point `n` of `x` and point
  `m` of `y` is written `(‖xₙ‖² + ‖yₘ‖²) − two · ⟨xₙ, yₘ⟩`; the Chamfer sum of a batch is the sum over `n` of the least
  distance from `xₙ` to `y`, plus the sum over `m` of the least distance from `yₘ` to `x`.  Nothing here needs the
  entries to be finite: only that `+` is commutative and associative and that a least element of a union is the lesser of
  the two least elements, which hold on all extended reals.

  The second half cuts the 4096 points of `x` into 64 tiles of 64 consecutive points and states what a running sum of
  row minima and a running pointwise minimum hold after the first `i + 1` tiles, with the two steps (first tile; one
  more tile) and the value after the last tile.
-/
import Idealize.ShloMosaic.PureOps.Ideal.Laws
import Idealize.ShloMosaic.Lib.ValueIdx

noncomputable section

namespace Cert.Chamfer

open Idealize.ShloMosaic Idealize.ShloMosaic.ValueIdx

/-- A cloud: 8 batches of 4096 points of 3 coordinates. -/
abbrev Cloud : Shape := ⟨3, ![8, 4096, 3]⟩
/-- One tile of a cloud: 64 consecutive points of every batch. -/
abbrev Tile : Shape := ⟨3, ![8, 64, 3]⟩

variable (two : EReal)

/-! ## Distances between a block of points and a cloud -/

section Block

variable {P : Nat} (x : (⟨3, ![8, P, 3]⟩ : Shape).Idx → EReal) (y : Cloud.Idx → EReal)

/-- The squared norm of point `n`. -/
def nrm (b : Fin 8) (n : Fin P) : EReal := ∑ d : Fin 3, x (ix3 b n d) * x (ix3 b n d)

/-- The inner product of point `n` of `x` and point `m` of `y`. -/
def crs (b : Fin 8) (n : Fin P) (m : Fin 4096) : EReal := ∑ d : Fin 3, x (ix3 b n d) * y (ix3 b m d)

/-- The squared distance, expanded: `(‖xₙ‖² + ‖yₘ‖²) − two · ⟨xₙ, yₘ⟩`. -/
def sqd (b : Fin 8) (n : Fin P) (m : Fin 4096) : EReal :=
  (nrm x b n + nrm y b m) - two * crs x y b n m

/-- The least squared distance from point `n` of `x` to the cloud `y`. -/
def rowMin (b : Fin 8) (n : Fin P) : EReal := Finset.univ.inf fun m : Fin 4096 => sqd two x y b n m

/-- The least squared distance from point `m` of `y` to the points of `x`. -/
def colMin (b : Fin 8) (m : Fin 4096) : EReal := Finset.univ.inf fun n : Fin P => sqd two x y b n m

end Block

/-- The Chamfer sum of batch `b`. -/
def chamfer (x y : Cloud.Idx → EReal) (b : Fin 8) : EReal :=
  ∑ n : Fin 4096, rowMin two x y b n + ∑ m : Fin 4096, colMin two x y b m

/-! ## Tiles -/

/-- Point `r` of tile `t` is point `64 t + r` of the cloud. -/
def tileIdx (t r : Fin 64) : Fin 4096 := ⟨64 * t.val + r.val, by have := t.isLt; have := r.isLt; omega⟩

/-- A natural number as a point, cut off at the last one (only numbers below 4096 are ever meant). -/
def pt (k : ℕ) : Fin 4096 := ⟨min k 4095, by omega⟩

theorem pt_val {k : ℕ} (h : k < 4096) : pt k = ⟨k, h⟩ := Fin.ext (by show min k 4095 = k; omega)

theorem pt_tile (t r : Fin 64) : pt (64 * t.val + r.val) = tileIdx t r :=
  pt_val (tileIdx t r).isLt

/-- A tile of `x` is `x` read at the tile's points: the distances agree. -/
theorem sqd_tile (x y : Cloud.Idx → EReal) (xb : Tile.Idx → EReal) (t : Fin 64)
    (hx : ∀ b r d, xb (ix3 b r d) = x (ix3 b (tileIdx t r) d)) (b : Fin 8) (r : Fin 64) (m : Fin 4096) :
    sqd two xb y b r m = sqd two x y b (tileIdx t r) m := by
  unfold sqd nrm crs
  simp only [hx]

theorem rowMin_tile (x y : Cloud.Idx → EReal) (xb : Tile.Idx → EReal) (t : Fin 64)
    (hx : ∀ b r d, xb (ix3 b r d) = x (ix3 b (tileIdx t r) d)) (b : Fin 8) (r : Fin 64) :
    rowMin two xb y b r = rowMin two x y b (tileIdx t r) := by
  unfold rowMin
  simp only [sqd_tile two x y xb t hx]

variable (x y : Cloud.Idx → EReal)

/-- The sum of the row minima of the first `i + 1` tiles. -/
def rowAcc (b : Fin 8) (i : ℕ) : EReal := ∑ k ∈ Finset.range (64 * (i + 1)), rowMin two x y b (pt k)

/-- The least distance from point `m` of `y` to the points of the first `i + 1` tiles. -/
def colAcc (b : Fin 8) (m : Fin 4096) (i : ℕ) : EReal :=
  (Finset.range (64 * (i + 1))).inf fun k => sqd two x y b (pt k) m

/-- A sum over the 64 points of tile `t`, as a sum over `Fin 64`. -/
theorem sum_tile (f : Fin 4096 → EReal) (t : Fin 64) :
    ∑ r ∈ Finset.range 64, f (pt (64 * t.val + r)) = ∑ r : Fin 64, f (tileIdx t r) := by
  rw [Finset.sum_range]
  exact Finset.sum_congr rfl fun r _ => by rw [pt_tile]

/-- A least value over the 64 points of tile `t`, as one over `Fin 64`. -/
theorem inf_tile (f : Fin 4096 → EReal) (t : Fin 64) :
    ((Finset.range 64).inf fun r => f (pt (64 * t.val + r))) = Finset.univ.inf fun r : Fin 64 => f (tileIdx t r) := by
  apply le_antisymm
  · exact Finset.le_inf fun r _ => by
      have h := Finset.inf_le (f := fun r => f (pt (64 * t.val + r))) (Finset.mem_range.2 r.isLt)
      rw [pt_tile] at h; exact h
  · exact Finset.le_inf fun r hr => by
      have h := Finset.inf_le (f := fun r : Fin 64 => f (tileIdx t r)) (Finset.mem_univ ⟨r, Finset.mem_range.1 hr⟩)
      rw [← pt_tile] at h; exact h

theorem rowAcc_zero (b : Fin 8) :
    rowAcc two x y b 0 = ∑ r : Fin 64, rowMin two x y b (tileIdx 0 r) := by
  unfold rowAcc
  have h := sum_tile (fun n => rowMin two x y b n) 0
  simp only [Fin.val_zero, Nat.mul_zero, Nat.zero_add] at h
  exact h

theorem rowAcc_succ (b : Fin 8) (i : ℕ) (h : i + 1 < 64) :
    rowAcc two x y b (i + 1) = rowAcc two x y b i + ∑ r : Fin 64, rowMin two x y b (tileIdx ⟨i + 1, h⟩ r) := by
  unfold rowAcc
  rw [show 64 * (i + 1 + 1) = 64 * (i + 1) + 64 by omega, Finset.sum_range_add]
  exact congrArg _ (sum_tile (fun n => rowMin two x y b n) ⟨i + 1, h⟩)

theorem rowAcc_last (b : Fin 8) : rowAcc two x y b 63 = ∑ n : Fin 4096, rowMin two x y b n := by
  unfold rowAcc
  rw [Finset.sum_range]
  exact Finset.sum_congr rfl fun n _ => by rw [pt_val n.isLt]

theorem colAcc_zero (b : Fin 8) (m : Fin 4096) :
    colAcc two x y b m 0 = Finset.univ.inf fun r : Fin 64 => sqd two x y b (tileIdx 0 r) m := by
  unfold colAcc
  have h := inf_tile (fun n => sqd two x y b n m) 0
  simp only [Fin.val_zero, Nat.mul_zero, Nat.zero_add] at h
  exact h

theorem colAcc_succ (b : Fin 8) (m : Fin 4096) (i : ℕ) (h : i + 1 < 64) :
    colAcc two x y b m (i + 1)
      = min (colAcc two x y b m i) (Finset.univ.inf fun r : Fin 64 => sqd two x y b (tileIdx ⟨i + 1, h⟩ r) m) := by
  unfold colAcc
  rw [show 64 * (i + 1 + 1) = 64 * (i + 1) + 64 by omega, Finset.range_add_eq_union, Finset.inf_union, Finset.inf_map]
  exact congrArg _ (inf_tile (fun n => sqd two x y b n m) ⟨i + 1, h⟩)

theorem colAcc_last (b : Fin 8) (m : Fin 4096) : colAcc two x y b m 63 = colMin two x y b m := by
  unfold colAcc colMin
  apply le_antisymm
  · exact Finset.le_inf fun n _ => by
      have h := Finset.inf_le (f := fun k => sqd two x y b (pt k) m) (Finset.mem_range.2 n.isLt)
      rw [pt_val n.isLt] at h; exact h
  · exact Finset.le_inf fun k hk => by
      have h := Finset.inf_le (f := fun n : Fin 4096 => sqd two x y b n m) (Finset.mem_univ ⟨k, Finset.mem_range.1 hk⟩)
      rw [← pt_val (Finset.mem_range.1 hk)] at h; exact h

end Cert.Chamfer

end
-- ==== Proof.KernelDist.lean ====
/-
  The kernel's table of squared distances, read at an index over the extended reals.

  On the tile `x0` of 64 points of the first cloud and the whole second cloud `x1` the body forms, for every batch `b`,
  row `r` of the tile and point `m` of the second cloud, `(‖x0ᵣ‖² + ‖x1ₘ‖²) − 2·⟨x0ᵣ, x1ₘ⟩`: the two squared norms are
  sums over the three coordinates, laid out as a column and a row and spread over the table; the inner products are one
  batched matrix product contracting the coordinate axis.
-/
import proofs.«168562_j78391743087244_1_alg».proof.Proof.Gen.KernelIdeal.Skeleton
import proofs.«168562_j78391743087244_1_alg».proof.Proof.Chamfer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Chamfer

/-- The factor 2 of the cross term, as the kernel writes it. -/
abbrev two : EReal := Ideal.ofBits .f32 0x40000000#32

/-! ## The squared norms: a sum over the coordinate axis -/

/-- The sum over the three coordinates of the squares of a tile's point is its squared norm. -/
theorem nrm_tile_apply (x0 : Vec Ideal S8x64x3 .f32) (b : Fin 8) (r : Fin 64) :
    multiReduction (F := Ideal) .add [2] S8x64 (mulf x0 x0) 0x00000000#32 reduces_S8x64x3_S8x64 (.inl rfl) rfl (ix2 b r)
      = nrm x0 b r := by
  refine (Ideal.multiReduction_add_single (mulf x0 x0) _ reduces_S8x64x3_S8x64 (.inl rfl) rfl (ix2 b r)).trans ?_
  unfold nrm
  refine Finset.sum_congr rfl fun d _ => ?_
  have e : reduces_S8x64x3_S8x64.lift (ix2 b r) d = ix3 b r d :=
    funext fun a => Fin.ext (by match a with | ⟨0, _⟩ => rfl | ⟨1, _⟩ => rfl | ⟨2, _⟩ => rfl)
  rw [e]
  rfl

/-- The same for a point of the whole cloud. -/
theorem nrm_cloud_apply (x1 : Vec Ideal S8x4096x3 .f32) (b : Fin 8) (m : Fin 4096) :
    multiReduction (F := Ideal) .add [2] S8x4096 (mulf x1 x1) 0x00000000#32 reduces_S8x4096x3_S8x4096 (.inl rfl) rfl (ix2 b m)
      = nrm x1 b m := by
  refine (Ideal.multiReduction_add_single (mulf x1 x1) _ reduces_S8x4096x3_S8x4096 (.inl rfl) rfl (ix2 b m)).trans ?_
  unfold nrm
  refine Finset.sum_congr rfl fun d _ => ?_
  have e : reduces_S8x4096x3_S8x4096.lift (ix2 b m) d = ix3 b m d :=
    funext fun a => Fin.ext (by match a with | ⟨0, _⟩ => rfl | ⟨1, _⟩ => rfl | ⟨2, _⟩ => rfl)
  rw [e]
  rfl

/-! ## The two layouts: a column and a row spread over the table -/

/-- A value per (batch, row), laid out as a column and spread along the points of the second cloud, reads its row. -/
theorem col_apply {α : Type} (v : S8x64.Idx → α) (b : Fin 8) (r : Fin 64) (m : Fin 4096) :
    broadcastTo S8x64x4096 (shapeCast S8x64x1 v shapeCasts_S8x64_S8x64x1) broadcasts_S8x64x1_S8x64x4096 (ix3 b r m)
      = v (ix2 b r) := by
  refine (broadcastTo_apply _ broadcasts_S8x64x1_S8x64x4096 (ix3 b r m) (ix3 b r (0 : Fin 1)) (fun a => ?_)).trans ?_
  · match a with
    | ⟨0, _⟩ => show b.val = if (8 : Nat) = 1 then 0 else b.val; rw [if_neg (by decide)]
    | ⟨1, _⟩ => show r.val = if (64 : Nat) = 1 then 0 else r.val; rw [if_neg (by decide)]
    | ⟨2, _⟩ => show 0 = if (1 : Nat) = 1 then 0 else m.val; rw [if_pos rfl]
  · refine shapeCast_apply v shapeCasts_S8x64_S8x64x1 (ix3 b r (0 : Fin 1)) (ix2 b r) ?_
    rw [Shape.rowMajor_val_two, Shape.rowMajor_val_three]
    show b.val * 64 + r.val = (b.val * 64 + r.val) * 1 + 0
    omega

/-- A value per (batch, point), laid out as a row and spread along the rows of the tile, reads its point. -/
theorem row_apply {α : Type} (v : S8x4096.Idx → α) (b : Fin 8) (r : Fin 64) (m : Fin 4096) :
    broadcastTo S8x64x4096 (shapeCast S8x1x4096 v shapeCasts_S8x4096_S8x1x4096) broadcasts_S8x1x4096_S8x64x4096 (ix3 b r m)
      = v (ix2 b m) := by
  refine (broadcastTo_apply _ broadcasts_S8x1x4096_S8x64x4096 (ix3 b r m) (ix3 b (0 : Fin 1) m) (fun a => ?_)).trans ?_
  · match a with
    | ⟨0, _⟩ => show b.val = if (8 : Nat) = 1 then 0 else b.val; rw [if_neg (by decide)]
    | ⟨1, _⟩ => show 0 = if (1 : Nat) = 1 then 0 else r.val; rw [if_pos rfl]
    | ⟨2, _⟩ => show m.val = if (4096 : Nat) = 1 then 0 else m.val; rw [if_neg (by decide)]
  · refine shapeCast_apply v shapeCasts_S8x4096_S8x1x4096 (ix3 b (0 : Fin 1) m) (ix2 b m) ?_
    rw [Shape.rowMajor_val_two, Shape.rowMajor_val_three]
    show b.val * 4096 + m.val = (b.val * 1 + 0) * 4096 + m.val
    omega

/-! ## The inner products: one batched matrix product contracting the coordinate axis -/

/-- Where the product reads its operands at (batch, row, point) and coordinate `k`: the left at (batch, row, `k`), the
    right at (batch, point, `k`). One statement per axis of each operand. -/
theorem lhs_axis0 (i : S8x64x4096.Idx) (q : dot_S8x64x3_S8x4096x3_S8x64x4096_2_2_1_1_0_0.contr.Idx) :
    (dot_S8x64x3_S8x4096x3_S8x64x4096_2_2_1_1_0_0.lhsIdx i q 0).val = (i 0).val := by
  unfold DotDims.lhsIdx
  rw [dif_pos (show (0 : Fin S8x64x3.rank) ∈ dot_S8x64x3_S8x4096x3_S8x64x4096_2_2_1_1_0_0.lhsBatch by decide)]
  rfl
theorem lhs_axis1 (i : S8x64x4096.Idx) (q : dot_S8x64x3_S8x4096x3_S8x64x4096_2_2_1_1_0_0.contr.Idx) :
    (dot_S8x64x3_S8x4096x3_S8x64x4096_2_2_1_1_0_0.lhsIdx i q 1).val = (i 1).val := by
  unfold DotDims.lhsIdx
  rw [dif_neg (show ¬(1 : Fin S8x64x3.rank) ∈ dot_S8x64x3_S8x4096x3_S8x64x4096_2_2_1_1_0_0.lhsBatch by decide), dif_pos (show (1 : Fin S8x64x3.rank) ∈ dot_S8x64x3_S8x4096x3_S8x64x4096_2_2_1_1_0_0.lhsNonContracting by decide)]
  rfl
theorem lhs_axis2 (i : S8x64x4096.Idx) (q : dot_S8x64x3_S8x4096x3_S8x64x4096_2_2_1_1_0_0.contr.Idx) :
    (dot_S8x64x3_S8x4096x3_S8x64x4096_2_2_1_1_0_0.lhsIdx i q 2).val = (q ⟨0, by decide⟩).val :=
  dot_S8x64x3_S8x4096x3_S8x64x4096_2_2_1_1_0_0.lhsIdx_val_of_single rfl i q
theorem rhs_axis0 (i : S8x64x4096.Idx) (q : dot_S8x64x3_S8x4096x3_S8x64x4096_2_2_1_1_0_0.contr.Idx) :
    (dot_S8x64x3_S8x4096x3_S8x64x4096_2_2_1_1_0_0.rhsIdx i q 0).val = (i 0).val := by
  unfold DotDims.rhsIdx
  rw [dif_pos (show (0 : Fin S8x4096x3.rank) ∈ dot_S8x64x3_S8x4096x3_S8x64x4096_2_2_1_1_0_0.rhsBatch by decide)]
  rfl
theorem rhs_axis1 (i : S8x64x4096.Idx) (q : dot_S8x64x3_S8x4096x3_S8x64x4096_2_2_1_1_0_0.contr.Idx) :
    (dot_S8x64x3_S8x4096x3_S8x64x4096_2_2_1_1_0_0.rhsIdx i q 1).val = (i 2).val := by
  unfold DotDims.rhsIdx
  rw [dif_neg (show ¬(1 : Fin S8x4096x3.rank) ∈ dot_S8x64x3_S8x4096x3_S8x64x4096_2_2_1_1_0_0.rhsBatch by decide), dif_pos (show (1 : Fin S8x4096x3.rank) ∈ dot_S8x64x3_S8x4096x3_S8x64x4096_2_2_1_1_0_0.rhsNonContracting by decide)]
  rfl
theorem rhs_axis2 (i : S8x64x4096.Idx) (q : dot_S8x64x3_S8x4096x3_S8x64x4096_2_2_1_1_0_0.contr.Idx) :
    (dot_S8x64x3_S8x4096x3_S8x64x4096_2_2_1_1_0_0.rhsIdx i q 2).val = (q ⟨0, by decide⟩).val :=
  dot_S8x64x3_S8x4096x3_S8x64x4096_2_2_1_1_0_0.rhsIdx_val_of_single rfl i q

/-- The matrix product into a table of zeros, at (batch, row, point), is the inner product of the row's point of the
    tile and the point of the second cloud. -/
theorem mm_apply (x0 : Vec Ideal S8x64x3 .f32) (x1 : Vec Ideal S8x4096x3 .f32) (b : Fin 8) (r : Fin 64) (m : Fin 4096) :
    matmul (F := Ideal) (φ₁ := .f32) (φ₂ := .f32) dot_S8x64x3_S8x4096x3_S8x64x4096_2_2_1_1_0_0 (some .fp32) x0 x1 (constant (F := Ideal) S8x64x4096 .f32 0x00000000#32) (ix3 b r m)
      = crs x0 x1 b r m := by
  simp only [matmul]
  rw [Ideal.matmul_constant_zero_apply, ← Equiv.sum_comp (ValueIdx.contrEquiv1 dot_S8x64x3_S8x4096x3_S8x64x4096_2_2_1_1_0_0 3 rfl rfl).symm]
  unfold crs
  refine Finset.sum_congr rfl fun k _ => ?_
  have hk := ValueIdx.contrEquiv1_symm_val dot_S8x64x3_S8x4096x3_S8x64x4096_2_2_1_1_0_0 3 rfl rfl k
  have el : dot_S8x64x3_S8x4096x3_S8x64x4096_2_2_1_1_0_0.lhsIdx (ix3 b r m) ((ValueIdx.contrEquiv1 dot_S8x64x3_S8x4096x3_S8x64x4096_2_2_1_1_0_0 3 rfl rfl).symm k) = ix3 b r k := funext fun a => Fin.ext (by
    match a with
    | ⟨0, _⟩ => exact lhs_axis0 _ _
    | ⟨1, _⟩ => exact lhs_axis1 _ _
    | ⟨2, _⟩ => exact (lhs_axis2 _ _).trans hk)
  have er : dot_S8x64x3_S8x4096x3_S8x64x4096_2_2_1_1_0_0.rhsIdx (ix3 b r m) ((ValueIdx.contrEquiv1 dot_S8x64x3_S8x4096x3_S8x64x4096_2_2_1_1_0_0 3 rfl rfl).symm k) = ix3 b m k := funext fun a => Fin.ext (by
    match a with
    | ⟨0, _⟩ => exact rhs_axis0 _ _
    | ⟨1, _⟩ => exact rhs_axis1 _ _
    | ⟨2, _⟩ => exact (rhs_axis2 _ _).trans hk)
  rw [el, er]

/-! ## The table -/

/-- The table of squared distances at (batch, row of the tile, point of the second cloud). -/
theorem pay4_apply (x0 : Vec Ideal S8x64x3 .f32) (x1 : Vec Ideal S8x4096x3 .f32) (b : Fin 8) (r : Fin 64) (m : Fin 4096) :
    k0_pay4 (F := Ideal) x0 x1 (ix3 b r m) = sqd two (P := 64) x0 x1 b r m := by
  unfold k0_pay4 sqd
  refine congrArg₂ (· - ·) (congrArg₂ (· + ·) ?_ ?_) (congrArg (two * ·) ?_)
  · exact (col_apply _ b r m).trans (nrm_tile_apply x0 b r)
  · exact (row_apply _ b r m).trans (nrm_cloud_apply x1 b m)
  · exact mm_apply x0 x1 b r m

end Cert.KernelIdeal.Pay

end
-- ==== Proof.KernelPay.lean ====
/-
  The kernel's three update formulas, read at an index over the extended reals.

  With the table of squared distances of a tile against the second cloud in hand, one grid step adds the tile's 64 row
  minima to a running sum, lowers a running minimum per point of the second cloud by the tile's column minimum, and at
  the last tile adds the running sum to the sum of the running minima, the same number in each of the 128 lanes of a row.
  The running minimum starts at +∞ and the running sum at 0.
-/
import proofs.«168562_j78391743087244_1_alg».proof.Proof.KernelDist

noncomputable section

namespace Cert.KernelIdeal.Pay

open Idealize.ShloMosaic Idealize.ShloMosaic.ValueIdx Cert.KernelIdeal Cert.KernelIdeal.Gen Cert.Chamfer

/-- A fold of `min` from the +∞ literal over all of `Fin n` is the least value. -/
private theorem fold_min_top {n : Nat} (f : Fin n → EReal) :
    (Finset.univ : Finset (Fin n)).fold (FloatOps.minimumf (F := Ideal) (φ := .f32))
        (FloatOps.ofBits (F := Ideal) .f32 0x7F800000#32) f = Finset.univ.inf f := by
  have htop : FloatOps.ofBits (F := Ideal) .f32 0x7F800000#32 = (⊤ : EReal) := by
    show Ideal.ofBits .f32 0x7F800000#32 = ⊤
    simp [Ideal.ofBits, Ideal.ieee]
  rw [htop]
  rfl

/-- The running sum after the tile: what it held plus the tile's 64 row minima. -/
theorem pay5_apply (x0 : Vec Ideal S8x64x3 .f32) (x1 : Vec Ideal S8x4096x3 .f32) (s : Vec Ideal S8x1 .f32) (b : Fin 8) (z : Fin 1) :
    k0_pay5 (F := Ideal) x0 x1 s (ix2 b z) = s (ix2 b z) + ∑ r : Fin 64, rowMin two (P := 64) x0 x1 b r := by
  unfold k0_pay5
  rw [shapeCast_self, addf_apply]
  refine congrArg (s (ix2 b z) + ·) ?_
  refine (shapeCast_apply _ _ (ix2 b z) (ix1 b) ?_).trans ?_
  · rw [Shape.rowMajor_val_two, Shape.rowMajor_val_one]
    show b.val = b.val * 1 + z.val
    have := z.isLt
    omega
  refine (Ideal.multiReduction_add_single _ _ _ _ _ _).trans ?_
  refine Finset.sum_congr rfl fun r _ => ?_
  have hrow : Facts₀.reduces_S8x64_S8.lift (ix1 b) r = ix2 b r :=
    funext fun a => Fin.ext (by match a with | ⟨0, _⟩ => rfl | ⟨1, _⟩ => rfl)
  rw [hrow]
  refine (multiReduction_minimumf_eq_fold _ _ _ _ _ _).trans ?_
  refine (Shape.Reduces.fold_filter_drop_single _ _ _ _ _).trans ?_
  refine (fold_min_top _).trans ?_
  unfold rowMin
  refine Finset.inf_congr rfl fun m _ => ?_
  have hlift : Facts₀.reduces_S8x64x4096_S8x64.lift (ix2 b r) m = ix3 b r m :=
    funext fun a => Fin.ext (by match a with | ⟨0, _⟩ => rfl | ⟨1, _⟩ => rfl | ⟨2, _⟩ => rfl)
  show k0_pay4 (F := Ideal) x0 x1 (Facts₀.reduces_S8x64x4096_S8x64.lift (ix2 b r) m) = _
  rw [hlift]
  exact pay4_apply x0 x1 b r m

/-- The running minimum after the tile: the lesser of what it held and the tile's column minimum. -/
theorem pay6_apply (x0 : Vec Ideal S8x64x3 .f32) (x1 : Vec Ideal S8x4096x3 .f32) (cm : Vec Ideal S8x4096 .f32) (b : Fin 8) (m : Fin 4096) :
    k0_pay6 (F := Ideal) x0 x1 cm (ix2 b m) = min (cm (ix2 b m)) (colMin two (P := 64) x0 x1 b m) := by
  unfold k0_pay6
  rw [shapeCast_self, minimumf_apply]
  refine congrArg (min (cm (ix2 b m))) ?_
  refine (multiReduction_minimumf_eq_fold _ _ _ _ _ _).trans ?_
  refine (Shape.Reduces.fold_filter_drop_single _ _ _ _ _).trans ?_
  refine (fold_min_top _).trans ?_
  unfold colMin
  refine Finset.inf_congr rfl fun r _ => ?_
  have hlift : Facts₀.reduces_S8x64x4096_S8x4096.lift (ix2 b m) r = ix3 b r m :=
    funext fun a => Fin.ext (by match a with | ⟨0, _⟩ => rfl | ⟨1, _⟩ => rfl | ⟨2, _⟩ => rfl)
  show k0_pay4 (F := Ideal) x0 x1 (Facts₀.reduces_S8x64x4096_S8x4096.lift (ix2 b m) r) = _
  rw [hlift]
  exact pay4_apply x0 x1 b r m

/-- The result row: the running sum plus the sum of the running minima, in every lane. -/
theorem pay1_apply (cm : Vec Ideal S8x4096 .f32) (s : Vec Ideal S8x1 .f32) (b : Fin 8) (l : Fin 128) :
    k0_pay1 (F := Ideal) cm s (ix2 b l) = s (ix2 b 0) + ∑ m : Fin 4096, cm (ix2 b m) := by
  unfold k0_pay1
  refine (broadcastTo_apply _ _ (ix2 b l) (ix2 b (0 : Fin 1)) fun a => ?_).trans ?_
  · match a with
    | ⟨0, _⟩ => rfl
    | ⟨1, _⟩ => rfl
  rw [shapeCast_self, addf_apply]
  congr 1
  refine (shapeCast_apply _ _ (ix2 b (0 : Fin 1)) (ix1 b) ?_).trans ?_
  · rw [Shape.rowMajor_val_two, Shape.rowMajor_val_one]
    show b.val = b.val * 1 + 0
    omega
  refine (Ideal.multiReduction_add_single _ _ _ _ _ _).trans ?_
  refine Finset.sum_congr rfl fun m _ => congrArg cm ?_
  funext a
  match a with
  | ⟨0, _⟩ => rfl
  | ⟨1, _⟩ => rfl

/-- The running minimum starts at +∞. -/
theorem pay2_apply (b : Fin 8) (m : Fin 4096) : k0_pay2 (F := Ideal) (ix2 b m) = ⊤ := by
  unfold k0_pay2
  rw [shapeCast_self]
  show Ideal.ofBits .f32 0x7F800000#32 = ⊤
  simp [Ideal.ofBits, Ideal.ieee]

/-- The running sum starts at 0. -/
theorem pay3_apply (b : Fin 8) (z : Fin 1) : k0_pay3 (F := Ideal) (ix2 b z) = 0 := by
  unfold k0_pay3
  rw [shapeCast_self]
  exact Ideal.ofBits_zero_f32

end Cert.KernelIdeal.Pay

end
-- ==== Proof.KernelValue.lean ====
/-
  What the kernel's result array holds after the run: the Chamfer sum of each batch.

  The grid walks the 64 tiles of the first cloud in order.  After tile `n` the kept running minimum holds, for every
  batch and point of the second cloud, the least squared distance to the points of tiles 0 … n, and the kept running sum
  holds the sum of the row minima of those tiles: by induction on `n`, the first tile starting from +∞ and 0.  At the
  last tile the two are closed into the result row, written back once, and the host keeps lane 0 of every row.
-/
import proofs.«168562_j78391743087244_1_alg».proof.Proof.Gen.KernelIdeal.Frame
import proofs.«168562_j78391743087244_1_alg».proof.Proof.KernelPieces
import proofs.«168562_j78391743087244_1_alg».proof.Proof.KernelPay
import proofs.«168562_j78391743087244_1_alg».proof.Proof.Chamfer
import Idealize.ShloMosaic.Lib.Pipeline.Value
import Idealize.ShloMosaic.Lib.StableHlo.Run
import Idealize.ShloMosaic.Lib.Tactic

noncomputable section

namespace Cert.KernelIdeal.ChamferValue

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.KernelIdeal.Pay Cert.KernelIdeal.Pieces

variable (m : (ℓ : Loc nD τ sig) → Buf (Elt Ideal) ℓ) (ρ : Dev nD → PrngReg)

/-- The two clouds as the region finds them. -/
abbrev xarr (c : Dev nD) : Vec Ideal S8x4096x3 .f32 := V m c main_arg0
abbrev yarr (c : Dev nD) : Vec Ideal S8x4096x3 .f32 := V m c main_arg1
/-- Tile `t` of the first cloud, and the second cloud's one block. -/
abbrev xblk (c : Dev nD) (t : Fin cfg0.N) : Vec Ideal S8x64x3 .f32 := iblk m c 0 t
abbrev yblk (c : Dev nD) (t : Fin cfg0.N) : Vec Ideal S8x4096x3 .f32 := iblk m c 1 t

theorem lt64 (t : Fin cfg0.N) : t.val < 64 := lt_of_lt_of_eq t.isLt N_0

/-- Where the first window's block sits: batch block 0, row block `t`, coordinate block 0. -/
theorem idx_x : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- The second window's block is the whole cloud at every point. -/
theorem idx_y : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

/-- Row `r` of tile `t` is point `64 t + r` of the first cloud. -/
theorem xblk_apply (c : Dev nD) (t : Fin cfg0.N) (b : Fin 8) (r : Fin 64) (d : Fin 3) :
    xblk m c t (ix3 b r d) = xarr m c (ix3 b (tileIdx ⟨t.val, lt64 t⟩ r) d) := by
  unfold xblk xarr iblk
  rw [View.read_apply]
  show V m c main_arg0 _ = V m c main_arg0 _
  congr 1
  funext a
  apply Fin.ext
  match a with
  | ⟨0, _⟩ => show win0_0.index t 0 * 8 + 1 * b.val = b.val; rw [(idx_x t).1]; omega
  | ⟨1, _⟩ => show win0_0.index t 1 * 64 + 1 * r.val = 64 * t.val + r.val; rw [(idx_x t).2.1]; omega
  | ⟨2, _⟩ => show win0_0.index t 2 * 3 + 1 * d.val = d.val; rw [(idx_x t).2.2]; omega

theorem yblk_eq (c : Dev nD) (t : Fin cfg0.N) : yblk m c t = yarr m c := by
  funext j
  unfold yblk yarr iblk
  rw [View.read_apply]
  show V m c main_arg1 _ = V m c main_arg1 _
  congr 1
  funext a
  apply Fin.ext
  match a with
  | ⟨0, _⟩ => show win0_1.index t 0 * 8 + 1 * (j 0).val = (j 0).val; rw [(idx_y t).1]; omega
  | ⟨1, _⟩ => show win0_1.index t 1 * 4096 + 1 * (j 1).val = (j 1).val; rw [(idx_y t).2.1]; omega
  | ⟨2, _⟩ => show win0_1.index t 2 * 3 + 1 * (j 2).val = (j 2).val; rw [(idx_y t).2.2]; omega

/-- The squared distances of tile `t` against the second cloud are the clouds' at the tile's points. -/
theorem sqd_blk (c : Dev nD) (t : Fin cfg0.N) (b : Fin 8) (r : Fin 64) (mm : Fin 4096) :
    sqd two (P := 64) (xblk m c t) (yblk m c t) b r mm
      = sqd two (P := 4096) (xarr m c) (yarr m c) b (tileIdx ⟨t.val, lt64 t⟩ r) mm := by
  rw [yblk_eq m c t]
  exact sqd_tile two (xarr m c) (yarr m c) (xblk m c t) ⟨t.val, lt64 t⟩ (fun b r d => xblk_apply m c t b r d) b r mm

theorem rowMin_blk (c : Dev nD) (t : Fin cfg0.N) (b : Fin 8) (r : Fin 64) :
    rowMin two (P := 64) (xblk m c t) (yblk m c t) b r
      = rowMin two (P := 4096) (xarr m c) (yarr m c) b (tileIdx ⟨t.val, lt64 t⟩ r) := by
  unfold rowMin
  simp only [sqd_blk]

theorem colMin_blk (c : Dev nD) (t : Fin cfg0.N) (b : Fin 8) (mm : Fin 4096) :
    colMin two (P := 64) (xblk m c t) (yblk m c t) b mm
      = Finset.univ.inf fun r : Fin 64 => sqd two (P := 4096) (xarr m c) (yarr m c) b (tileIdx ⟨t.val, lt64 t⟩ r) mm := by
  unfold colMin
  simp only [sqd_blk]

/-- After tile `n`: the running minimum is the least distance to the points of tiles 0 … n, the running sum the sum of
    their row minima. -/
theorem inv (c : Dev nD) : ∀ (n : ℕ) (h : n < cfg0.N),
    (∀ b mm, (outsAt0 m c n h).2.1 (ix2 b mm) = colAcc two (xarr m c) (yarr m c) b mm n)
    ∧ (∀ b z, (outsAt0 m c n h).2.2 (ix2 b z) = rowAcc two (xarr m c) (yarr m c) b n)
  | 0, h => by
    rw [outsAt0_A m c ⟨0, h⟩ rfl (by dsimp only; omega)]
    dsimp only
    refine ⟨fun b mm => ?_, fun b z => ?_⟩
    · refine (congrFun (sout_A_0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) _ _ (xblk m c ⟨0, h⟩) (yblk m c ⟨0, h⟩)) (ix2 b mm)).trans ?_
      rw [pay6_apply, pay2_apply, min_eq_right le_top, colMin_blk, colAcc_zero]
      rfl
    · refine (congrFun (sout_A_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) _ _ (xblk m c ⟨0, h⟩) (yblk m c ⟨0, h⟩)) (ix2 b z)).trans ?_
      rw [pay5_apply, pay3_apply, zero_add, rowAcc_zero]
      exact Finset.sum_congr rfl fun r _ => rowMin_blk m c ⟨0, h⟩ b r
  | n + 1, h => by
    have hN : n + 1 < 64 := lt_of_lt_of_eq h N_0
    have hn : n < cfg0.N := Nat.lt_of_succ_lt h
    have h0 : ¬(⟨n + 1, h⟩ : Fin cfg0.N).val % 64 = 0 := by dsimp only; omega
    obtain ⟨ihc, ihr⟩ := inv c n hn
    by_cases h1 : (⟨n + 1, h⟩ : Fin cfg0.N).val % 64 = 63
    · rw [outsAt0_C m c ⟨n + 1, h⟩ h0 h1]
      dsimp only
      refine ⟨fun b mm => ?_, fun b z => ?_⟩
      · refine (congrFun (sout_C_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) (yblk m c ⟨n + 1, h⟩) (outsAt0 m c n hn).2.1 (outsAt0 m c n hn).2.2) (ix2 b mm)).trans ?_
        rw [pay6_apply, ihc, colMin_blk, colAcc_succ two _ _ b mm n hN]
      · refine (congrFun (sout_C_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) (yblk m c ⟨n + 1, h⟩) (outsAt0 m c n hn).2.1 (outsAt0 m c n hn).2.2) (ix2 b z)).trans ?_
        rw [pay5_apply, ihr, rowAcc_succ two _ _ b n hN]
        exact congrArg _ (Finset.sum_congr rfl fun r _ => rowMin_blk m c ⟨n + 1, h⟩ b r)
    · rw [outsAt0_B m c ⟨n + 1, h⟩ h0 h1]
      dsimp only
      refine ⟨fun b mm => ?_, fun b z => ?_⟩
      · refine (congrFun (sout_B_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) (yblk m c ⟨n + 1, h⟩) (outsAt0 m c n hn).2.1 (outsAt0 m c n hn).2.2) (ix2 b mm)).trans ?_
        rw [pay6_apply, ihc, colMin_blk, colAcc_succ two _ _ b mm n hN]
      · refine (congrFun (sout_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) (yblk m c ⟨n + 1, h⟩) (outsAt0 m c n hn).2.1 (outsAt0 m c n hn).2.2) (ix2 b z)).trans ?_
        rw [pay5_apply, ihr, rowAcc_succ two _ _ b n hN]
        exact congrArg _ (Finset.sum_congr rfl fun r _ => rowMin_blk m c ⟨n + 1, h⟩ b r)

/-- The result rows: every lane of row `b` holds the Chamfer sum of batch `b`. -/
abbrev outArr (c : Dev nD) : Buf (Elt Ideal) ((c : Thread nD τ).loc main_v0) :=
  fun j : S8x128.Idx => chamfer two (xarr m c) (yarr m c) (j 0)

/-- At the last tile the closing formula over the two kept buffers, as just updated, is the Chamfer sum. -/
theorem last_val (c : Dev nD) (n : ℕ) (h : n + 1 < cfg0.N) (h63 : n + 1 = 63) (b : Fin 8) (l : Fin 128) :
    (outsAt0 m c (n + 1) h).1 (ix2 b l) = chamfer two (xarr m c) (yarr m c) b := by
  have hn : n < cfg0.N := Nat.lt_of_succ_lt h
  have hN : n + 1 < 64 := by omega
  have h0 : ¬(⟨n + 1, h⟩ : Fin cfg0.N).val % 64 = 0 := by dsimp only; omega
  have h1 : (⟨n + 1, h⟩ : Fin cfg0.N).val % 64 = 63 := by dsimp only; omega
  obtain ⟨ihc, ihr⟩ := inv m c n hn
  rw [outsAt0_C m c ⟨n + 1, h⟩ h0 h1]
  dsimp only
  refine (congrFun (out_C_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ _ (xblk m c ⟨n + 1, h⟩) (yblk m c ⟨n + 1, h⟩) (outsAt0 m c n hn).2.1 (outsAt0 m c n hn).2.2) (ix2 b l)).trans ?_
  have ec : ∀ mm : Fin 4096, k0_pay6 (F := Ideal) (xblk m c ⟨n + 1, h⟩) (yblk m c ⟨n + 1, h⟩) (outsAt0 m c n hn).2.1 (ix2 b mm)
      = colMin two (P := 4096) (xarr m c) (yarr m c) b mm := fun mm => by
    rw [pay6_apply, ihc, colMin_blk]
    refine (colAcc_succ two _ _ b mm n hN).symm.trans ?_
    rw [h63]; exact colAcc_last two _ _ b mm
  have er : k0_pay5 (F := Ideal) (xblk m c ⟨n + 1, h⟩) (yblk m c ⟨n + 1, h⟩) (outsAt0 m c n hn).2.2 (ix2 b 0)
      = ∑ n : Fin 4096, rowMin two (P := 4096) (xarr m c) (yarr m c) b n := by
    rw [pay5_apply, ihr, Finset.sum_congr rfl fun r _ => rowMin_blk m c ⟨n + 1, h⟩ b r]
    refine (rowAcc_succ two _ _ b n hN).symm.trans ?_
    rw [h63]; exact rowAcc_last two _ _ b
  rw [pay1_apply, er, Finset.sum_congr rfl fun mm _ => ec mm]
  rfl

/-- The result window's one block sits at the origin. -/
theorem idx_o : ∀ t : Fin cfg0.N, win0_2.index t 0 = 0 ∧ win0_2.index t 1 = 0 :=
  (by decide +kernel : ∀ t : Fin grid0.N, win0_2.index t 0 = 0 ∧ win0_2.index t 1 = 0)

/-- The one write-back, after the last tile, writes the result rows: the block is the whole [8,128] array. -/
theorem flushed_eq (c : Dev nD) (t : Fin cfg0.N) (hf : (cfg0.win 2).flush t = true) :
    (dats m 0 c).flushed 2 t = ((cfg0.win 2).blk t).view.read (Elt Ideal) (outArr m c) := by
  have h3 : t.val = 63 := by have := (flush0_2 t).mp hf; have := lt64 t; omega
  obtain ⟨tv, ht⟩ := t
  obtain ⟨n, rfl⟩ : ∃ n, tv = n + 1 := ⟨tv - 1, by dsimp only at h3; omega⟩
  have h63 : n + 1 = 63 := h3
  show (cfg0.win 2).cut (grid0.coords ⟨n + 1, ht⟩) ((dats m 0 c).after 2 ⟨n + 1, ht⟩) = _
  rw [after0_2]
  have e : (outsAt0 m c (n + 1) ht).1 = outArr m c := funext fun j => by
    obtain ⟨b, l, rfl⟩ : ∃ (b : Fin 8) (l : Fin 128), j = ix2 b l := ⟨j 0, j 1, eq_ix2 j⟩
    exact last_val m c n ht h63 b l
  show (cfg0.win 2).cut (grid0.coords ⟨n + 1, ht⟩) (outsAt0 m c (n + 1) ht).1 = _
  rw [e]
  have hz' : (fun a => win0_2.index ⟨n + 1, ht⟩ a * main_v0.ty.shape.size a) = fun _ => 0 := funext fun a => by
    match a with
    | ⟨0, _⟩ => show win0_2.index ⟨n + 1, ht⟩ 0 * 8 = 0; rw [(idx_o _).1]
    | ⟨1, _⟩ => show win0_2.index ⟨n + 1, ht⟩ 1 * 128 = 0; rw [(idx_o _).2]
  exact (Memref.read_access_unit_zero (Elt Ideal) main_v0 hz' (fun a => by rw [congrFun hz' a]; simp) (outArr m c)).symm

/-- The last grid point. -/
abbrev tLast : Fin cfg0.N := ⟨63, by decide⟩

/-- So the result array ends holding the result rows: the last point's block covers it. -/
theorem final_o (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 8 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 128 from by decide +kernel]; omega⟩

/-- What the host keeps: the Chamfer sum of each batch. -/
abbrev result (c : Dev nD) : Buf (Elt Ideal) ((c : Thread nD τ).loc main_v2) :=
  fun i : S8.Idx => chamfer two (xarr m c) (yarr m c) (i 0)

/-- After the host's two layout steps (lane 0 of every row, then the unit axis dropped) entry `b` is row `b`'s number. -/
theorem tail_eq (c : Dev nD) : Pipeline.afterTail₀ cfgs (dats m) 0 (V0 m) [hostOps1] c main_v2 = result m c := by
  unfold Pipeline.afterTail₀
  show StableHlo.after hostOps1 _ (Proc.devRef .tc main_v2) = _
  after_results
  have ea : Pipeline.withArrays (cfgs 0).spec c (V0 m c) (fun w => (dats m 0 c).arrAt w (cfgs 0).N) (Proc.devRef .tc main_v0) = outArr m c :=
    (Pipeline.withArrays_arr spec0 launch0.win.arr_inj c _ _ 2).trans (final_o m c)
  funext i
  obtain ⟨b, rfl⟩ : ∃ b : Fin 8, i = ix1 b := ⟨i 0, eq_ix1 i⟩
  show shapeCast S8 (extractStridedSlice S8x1 ![0, 0] (Pipeline.withArrays (cfgs 0).spec c (V0 m c) (fun w => (dats m 0 c).arrAt w (cfgs 0).N) (Proc.devRef .tc main_v0)) slices_S8x128_S8x1_0_0) shapeCasts_S8x1_S8 (ix1 b) = _
  rw [ea]
  rw [shapeCast_apply _ shapeCasts_S8x1_S8 (ix1 b) (ix2 b (0 : Fin 1)) (by rw [Shape.rowMajor_val_two, Shape.rowMajor_val_one]; show b.val * 1 + 0 = b.val; omega)]
  rw [extractStridedSlice_apply ![0, 0] _ slices_S8x128_S8x1_0_0 (ix2 b (0 : Fin 1)) (ix2 b (0 : Fin 128)) (fun a => by
    match a with
    | ⟨0, _⟩ => show b.val = 0 + b.val; omega
    | ⟨1, _⟩ => show 0 = 0 + 0; rfl)]

/-- The run, read: the result at the Chamfer sums, the two clouds unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ChamferValue

end
-- ==== Proof.RefChamfer.lean ====
/-
  The reference computes the Chamfer sum: the table of squared distances `(‖xₙ‖² + ‖yₘ‖²) − 2·⟨xₙ, yₘ⟩` over all pairs of
  points, its minimum along each row summed over the rows, its minimum along each column summed over the columns, and the
  two sums added.
-/
import proofs.«168562_j78391743087244_1_alg».proof.Proof.Gen.ReferenceIdeal.Read
import proofs.«168562_j78391743087244_1_alg».proof.Proof.Chamfer
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Chamfer

/-- The factor 2 of the cross term, as the reference writes it. -/
abbrev two : EReal := Ideal.ofBits .f32 0x40000000#32

/-- The table of squared distances: entry `(b, n, m)` is the expanded squared distance of point `n` of the first cloud
    and point `m` of the second. The two sums of squares start from zero, which adds nothing. -/
theorem dist_apply (x0 x1 : (⟨S8x4096x3, .f32⟩ : BufTy).Contents (Elt Ideal)) (b : Fin 8) (n m : Fin 4096) :
    val_main_v12 (F := Ideal) x0 x1 (ix3 b n m) = sqd two x0 x1 b n m := by
  rw [val_main_v12_apply, val_main_v9_apply, val_main_v11_apply, val_main_v7_apply, val_main_v8_apply,
    val_main_v5_apply, val_main_v6_apply, val_main_v1_apply, val_main_v3_apply, val_main_v10_apply,
    val_main_v4_apply, val_main_cst_apply, val_main_cst_0_apply, val_main_cst_1_apply]
  simp only [val_main_v0_apply, val_main_v2_apply, Ideal.ofBits_def, Ideal.addf_def, Ideal.subf_def, Ideal.mulf_def,
    Ideal.ofBits_zero_f32, zero_add]
  unfold sqd nrm crs
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4]

/-- The literal the reference starts its minima from is `+∞`. -/
theorem inf_literal : Ideal.ofBits .f32 0x7F800000#32 = (⊤ : EReal) := by simp [Ideal.ofBits, Ideal.ieee]

/-- The minimum along row `(b, n)` of the table is the least squared distance from point `n` to the second cloud. -/
theorem rowMin_apply (x0 x1 : (⟨S8x4096x3, .f32⟩ : BufTy).Contents (Elt Ideal)) (b : Fin 8) (n : Fin 4096) :
    val_main_v13 (F := Ideal) x0 x1 (ix2 b n) = rowMin two x0 x1 b n := by
  have h : S8x4096x4096.Reduces [2] S8x4096 := by decide
  unfold val_main_v13
  rw [Host.reduce_eq_fold_single FloatOps.minimumf _ _ _ h _]
  have hf : (val_main_v12 (F := Ideal) x0 x1 ∘ h.lift (ix2 b n)) = fun m : Fin 4096 => sqd two x0 x1 b n m :=
    funext fun m => by
      have e : h.lift (ix2 b n) m = ix3 b n m :=
        funext fun a => Fin.ext (by match a with | ⟨0, _⟩ => rfl | ⟨1, _⟩ => rfl | ⟨2, _⟩ => rfl)
      show val_main_v12 (F := Ideal) x0 x1 (h.lift (ix2 b n) m) = _
      rw [e]
      exact dist_apply x0 x1 b n m
  rw [hf, val_main_cst_2_apply, Ideal.ofBits_def, inf_literal]
  rfl

/-- The minimum along column `(b, m)` of the table is the least squared distance from point `m` of the second cloud to
    the first. -/
theorem colMin_apply (x0 x1 : (⟨S8x4096x3, .f32⟩ : BufTy).Contents (Elt Ideal)) (b : Fin 8) (m : Fin 4096) :
    val_main_v15 (F := Ideal) x0 x1 (ix2 b m) = colMin two x0 x1 b m := by
  have h : S8x4096x4096.Reduces [1] S8x4096 := by decide
  unfold val_main_v15
  rw [Host.reduce_eq_fold_single FloatOps.minimumf _ _ _ h _]
  have hf : (val_main_v12 (F := Ideal) x0 x1 ∘ h.lift (ix2 b m)) = fun n : Fin 4096 => sqd two x0 x1 b n m :=
    funext fun n => by
      have e : h.lift (ix2 b m) n = ix3 b n m :=
        funext fun a => Fin.ext (by match a with | ⟨0, _⟩ => rfl | ⟨1, _⟩ => rfl | ⟨2, _⟩ => rfl)
      show val_main_v12 (F := Ideal) x0 x1 (h.lift (ix2 b m) n) = _
      rw [e]
      exact dist_apply x0 x1 b n m
  rw [hf, val_main_cst_4_apply, Ideal.ofBits_def, inf_literal]
  rfl

/-- The reference's result at batch `b` is the Chamfer sum of that batch. -/
theorem result_apply (x0 x1 : (⟨S8x4096x3, .f32⟩ : BufTy).Contents (Elt Ideal)) (b : Fin 8) :
    val_main_v17 (F := Ideal) x0 x1 (ix1 b) = chamfer two x0 x1 b := by
  rw [val_main_v17_apply, val_main_v14_apply, val_main_v16_apply, val_main_cst_3_apply, val_main_cst_5_apply]
  simp only [Ideal.ofBits_def, Ideal.addf_def, Ideal.ofBits_zero_f32, zero_add]
  unfold chamfer
  have e1 : ∀ k : Fin 4096, idx_main_v14 (ix1 b) k = ix2 b k := fun k =>
    funext fun a => Fin.ext (by match a with | ⟨0, _⟩ => rfl | ⟨1, _⟩ => rfl)
  have e2 : ∀ k : Fin 4096, idx_main_v16 (ix1 b) k = ix2 b k := fun k =>
    funext fun a => Fin.ext (by match a with | ⟨0, _⟩ => rfl | ⟨1, _⟩ => rfl)
  simp only [e1, e2, rowMin_apply, colMin_apply]

end Cert.ReferenceIdeal.RefValue

end
-- ==== Proof.lean ====
/-
  The kernel and the reference compute the same Chamfer sum.

  Both programs form the squared distance of every point of the first cloud to every point of the second as
  `(‖xₙ‖² + ‖yₘ‖²) − 2·⟨xₙ, yₘ⟩`, take the least along each row and along each column, and add the two sums of minima.
  The reference does it on the whole 4096 × 4096 table at once.  The kernel walks the first cloud in 64 tiles of 64
  points, keeping a running sum of the row minima and a running minimum per column, and closes the two into the result
  at the last tile.  Over the extended reals the two agree whatever the inputs are: a sum may be taken tile by tile
  because addition is commutative and associative, and a least element tile by tile because the least element of a union
  is the lesser of the two least elements; no distributivity or cancellation is used, so finiteness of the inputs is not
  needed.  The frames of the two kernel programs are the generated ones; the reference's is its generated run.
-/
import proofs.«168562_j78391743087244_1_alg».proof.Defs
import proofs.«168562_j78391743087244_1_alg».proof.Proof.Gen.Kernel
import proofs.«168562_j78391743087244_1_alg».proof.Proof.Gen.Kernel.Skeleton
import proofs.«168562_j78391743087244_1_alg».proof.Proof.Gen.Kernel.Launch
import proofs.«168562_j78391743087244_1_alg».proof.Proof.Gen.Kernel.Points
import proofs.«168562_j78391743087244_1_alg».proof.Proof.Gen.Kernel.Frame
import proofs.«168562_j78391743087244_1_alg».proof.Proof.Gen.KernelIdeal
import proofs.«168562_j78391743087244_1_alg».proof.Proof.Gen.KernelIdeal.Skeleton
import proofs.«168562_j78391743087244_1_alg».proof.Proof.Gen.KernelIdeal.Launch
import proofs.«168562_j78391743087244_1_alg».proof.Proof.Gen.KernelIdeal.Points
import proofs.«168562_j78391743087244_1_alg».proof.Proof.Gen.KernelIdeal.Frame
import proofs.«168562_j78391743087244_1_alg».proof.Proof.Gen.ReferenceIdeal
import proofs.«168562_j78391743087244_1_alg».proof.Proof.Gen.Pre_finite_inputs
import proofs.«168562_j78391743087244_1_alg».proof.Proof.Gen.ReferenceIdeal.Run
import proofs.«168562_j78391743087244_1_alg».proof.Proof.Gen.ReferenceIdeal.Read
import proofs.«168562_j78391743087244_1_alg».proof.Proof.KernelValue
import proofs.«168562_j78391743087244_1_alg».proof.Proof.RefChamfer
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.Value.run (F := Ideal) m ρ)

/-- Both programs end with the Chamfer sum of every batch of the same two clouds. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ChamferValue.result m c, fun c => Cert.KernelIdeal.ChamferValue.result m c,
    (θ_run Cert.KernelIdeal.defs _ _).mono (fun _ h c => ⟨(h c).1, (h c).1, (h c).2.1, (h c).2.2⟩)
      (Cert.KernelIdeal.ChamferValue.run m ρ), ?_⟩
  refine (θ_run Cert.ReferenceIdeal.defs _ _).mono (fun _ h c => ?_) (Cert.ReferenceIdeal.Value.run (F := Ideal) m' ρ')
  have e : Cert.ReferenceIdeal.Read.val_main_v17 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      = Cert.KernelIdeal.ChamferValue.result m c := by
    funext i
    obtain ⟨b, rfl⟩ : ∃ b : Fin 8, i = ValueIdx.ix1 b := ⟨i 0, ValueIdx.eq_ix1 i⟩
    rw [Cert.ReferenceIdeal.RefValue.result_apply, (hagree c).1, (hagree c).2]
    rfl
  exact ⟨(h c).1.trans ((Cert.ReferenceIdeal.Read.val_main_v17_eq _ _).trans e),
    (h c).2.1.trans ((Cert.ReferenceIdeal.Read.val_main_v17_eq _ _).trans e), (h c).2.2.1, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
